-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : FVec F S128x128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S5000 : Shape := ⟨1, ![5000]⟩

abbrev nBuf : Space → Nat
  | .hbm => 33
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S100000x1, .f32⟩
  | .hbm, ⟨28, _⟩ => ⟨S128x128, .f32⟩
  | .hbm, ⟨29, _⟩ => ⟨S128x128, .bf16⟩
  | .hbm, ⟨30, _⟩ => ⟨S128x128, .f32⟩
  | .hbm, ⟨31, _⟩ => ⟨S128x128, .bf16⟩
  | .hbm, ⟨32, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  transposes_S128x128_S128x128_1_0 : S128x128.Transposes [1, 0] S128x128
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S5000 : S5000x128.Reduces [1] S5000
  shapeCasts_S5000_S5000x1 : S5000.ShapeCasts S5000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000, .f32⟩
  | .hbm, ⟨41, _⟩ => ⟨S100000x1, .f32⟩
  | .hbm, ⟨42, _⟩ => ⟨S100000x1, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  reducesTo_S100000x128_S100000_d1 : S100000x128.ReducesTo [1] S100000
  h_S_ : 0 < S_.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NormLaw.lean ====
/-
  The one law that joins the two normalisations, on the extended reals.

  Both programs scale a row `o` (128 extended reals) by the reciprocal of its Euclidean length, floored:
  with `s = ∑ⱼ oⱼ²`, one multiplies by `rsqrt (max s ε²)`, the other divides by `max (√s) ε`.
  Since the square root is monotone and `√(ε²) = ε` for `ε > 0`, `√(max s ε²) = max (√s) ε`, so for a real
  `s ≥ 0` the two scalings are the same positive real. At `s = ⊤` both scalings are `0`
  (`rsqrt ⊤ = 0`, `⊤⁻¹ = 0`), so every entry, infinite ones included, is sent to `0` by both.
  A sum of squares is never below zero, so these are all the cases.
-/
import Idealize.ShloMosaic.PureOps.Ideal
import Idealize.ShloMosaic.PureOps.Ideal.Laws

noncomputable section

namespace Cert.SageNorm

open Idealize.ShloMosaic

/-- `√` commutes with `max` against a square: `√(max r (e·e)) = max (√r) e` for `e ≥ 0`. -/
theorem sqrt_max_sq (r e : ℝ) (he : 0 ≤ e) : Real.sqrt (max r (e * e)) = max (Real.sqrt r) e := by
  rw [Real.sqrt_monotone.map_max, Real.sqrt_mul_self he]

/-- The embedding of the reals keeps `max`. -/
theorem coe_max (a b : ℝ) : ((max a b : ℝ) : EReal) = max (a : EReal) (b : EReal) :=
  EReal.coe_strictMono.monotone.map_max

/-- Multiplying by `rsqrt (max s (e·e))` is dividing by `max (√s) e`, for every extended real `v` and every
    `s ≥ 0` (`⊤` included), when `e > 0`. -/
theorem scale_eq (e : ℝ) (he : 0 < e) (v s : EReal) (hs : 0 ≤ s) :
    v * Ideal.rsqrt (max s ((e * e : ℝ) : EReal)) = Ideal.div v (max (Ideal.sqrt s) ((e : ℝ) : EReal)) := by
  induction s using EReal.rec with
  | bot => exact absurd hs (by simp)
  | top =>
    rw [max_eq_left le_top, Ideal.rsqrt_top, mul_zero, Ideal.sqrt_top, max_eq_left le_top, Ideal.div,
      if_neg EReal.top_ne_zero, EReal.inv_top, mul_zero]
  | coe r =>
    have hr : 0 ≤ r := by exact_mod_cast hs
    have hpos : 0 < max r (e * e) := lt_max_of_lt_right (mul_pos he he)
    have hq : max (Real.sqrt r) e ≠ 0 := (lt_max_of_lt_right he).ne'
    rw [← coe_max, Ideal.rsqrt_coe, if_neg (not_lt.mpr hpos.le), if_neg hpos.ne', Ideal.sqrt_coe,
      if_neg (not_lt.mpr hr), ← coe_max, Ideal.div_coe hq, sqrt_max_sq r e he.le, one_div]

/-- The reference's floor under the norm, the f32 word of `1e-12`, is the dyadic `2305843 / 2^61`. -/
theorem ofBits_floor : Ideal.ofBits .f32 0x2B8CBCCC#32 = ((2305843 / 2 ^ 61 : ℝ) : EReal) := by
  simp [Ideal.ofBits, Ideal.ieee, -EReal.coe_mul]; norm_num

/-- The f32 word of `1.0` is `1`. -/
theorem ofBits_one : Ideal.ofBits .f32 0x3F800000#32 = 1 := by
  simp [Ideal.ofBits, Ideal.ieee, -EReal.coe_mul]; norm_num

/-- The value the kernel's floor under the square root is named: the square of the reference's floor. -/
theorem floor_sq : (5316911940649 / 5316911983139663491615228241121378304 : ℝ) = (2305843 / 2 ^ 61) * (2305843 / 2 ^ 61) := by
  norm_num

/-- The law at this pair of floors. -/
theorem scale_eq_floors (v s : EReal) (hs : 0 ≤ s) :
    v * Ideal.rsqrt (max s ((5316911940649 / 5316911983139663491615228241121378304 : ℝ) : EReal))
      = Ideal.div v (max (Ideal.sqrt s) (Ideal.ofBits .f32 0x2B8CBCCC#32)) := by
  rw [ofBits_floor, floor_sq]
  exact scale_eq _ (by norm_num) v s hs

/-- A finite sum of squares of extended reals is not below zero. -/
theorem sum_sq_nonneg {ι : Type*} (t : Finset ι) (o : ι → EReal) : 0 ≤ ∑ j ∈ t, o j * o j := by
  refine Finset.sum_nonneg fun j _ => ?_
  rcases le_total 0 (o j) with h | h
  · exact EReal.mul_nonneg h h
  · exact EReal.mul_nonneg_iff.mpr (Or.inr ⟨h, h⟩)

end Cert.SageNorm

end
-- ==== Proof.RowSpec.lean ====
/-
  What both programs compute, row by row.

  For a node `r`: the mean of its in-neighbours' features, `s / max cnt 1` entrywise (`s` the scattered sum, `cnt` the
  in-degree), is projected by one 128×128 matrix, the node's own features by another, and the two are added:
    `o j = ∑ₖ (s k / max cnt 1) · A k j + ∑ₖ x k · B k j`.
  The row is then scaled to unit Euclidean length with a floor on the length: one program writes
  `o j · rsqrt (max (∑ o²) ε²)`, the other `o j / max (√(∑ o²)) ε`; by the law of the floors they are one row.
  The whole [100000,128] result is that row function applied at every row of the arrays.
-/
import proofs.«404613_j32598801777055_3_alg».proof.Proof.NormLaw
import Idealize.ShloMosaic.Lib.ValueIdx

noncomputable section

namespace Cert.SageNorm

open Idealize.ShloMosaic Idealize.ShloMosaic.ValueIdx

/-- A node's row before scaling: the projected neighbour mean plus the projected own features. -/
def rowOut (s : Fin 128 → EReal) (cnt : EReal) (x : Fin 128 → EReal) (A B : Fin 128 → Fin 128 → EReal) (j : Fin 128) : EReal :=
  (∑ k : Fin 128, Ideal.div (s k) (max cnt 1) * A k j) + ∑ k : Fin 128, x k * B k j

/-- The squared Euclidean length of a row. -/
def rowSq (o : Fin 128 → EReal) : EReal := ∑ j : Fin 128, o j * o j

/-- The row scaled by `rsqrt` of its floored squared length (the floor is the square of the other program's). -/
def scaled (o : Fin 128 → EReal) (j : Fin 128) : EReal :=
  o j * Ideal.rsqrt (max (rowSq o) ((5316911940649 / 5316911983139663491615228241121378304 : ℝ) : EReal))

/-- The row divided by its floored length. -/
def scaledRef (o : Fin 128 → EReal) (j : Fin 128) : EReal :=
  Ideal.div (o j) (max (Ideal.sqrt (rowSq o)) (Ideal.ofBits .f32 0x2B8CBCCC#32))

/-- The two scalings are one row: the squared length is a sum of squares, so it is not below zero. -/
theorem scaled_eq (o : Fin 128 → EReal) (j : Fin 128) : scaled o j = scaledRef o j :=
  scale_eq_floors (o j) (rowSq o) (sum_sq_nonneg Finset.univ o)

/-- The whole result from the scattered sums `S`, the in-degrees `C` (a column), the features `X` and the two
    projection matrices `A`, `B` (as they multiply from the right): row `i 0`, entry `i 1`. -/
def G (S : (⟨2, ![100000, 128]⟩ : Shape).Idx → EReal) (C : (⟨2, ![100000, 1]⟩ : Shape).Idx → EReal)
    (X : (⟨2, ![100000, 128]⟩ : Shape).Idx → EReal) (A B : (⟨2, ![128, 128]⟩ : Shape).Idx → EReal) :
    (⟨2, ![100000, 128]⟩ : Shape).Idx → EReal := fun i =>
  scaled (rowOut (fun k => S (ix2 (i 0) k)) (C (ix2 (i 0) 0)) (fun k => X (ix2 (i 0) k)) (fun k j => A (ix2 k j)) (fun k j => B (ix2 k j))) (i 1)

/-- The same with the other scaling. -/
def Gref (S : (⟨2, ![100000, 128]⟩ : Shape).Idx → EReal) (C : (⟨2, ![100000, 1]⟩ : Shape).Idx → EReal)
    (X : (⟨2, ![100000, 128]⟩ : Shape).Idx → EReal) (A B : (⟨2, ![128, 128]⟩ : Shape).Idx → EReal) :
    (⟨2, ![100000, 128]⟩ : Shape).Idx → EReal := fun i =>
  scaledRef (rowOut (fun k => S (ix2 (i 0) k)) (C (ix2 (i 0) 0)) (fun k => X (ix2 (i 0) k)) (fun k j => A (ix2 k j)) (fun k j => B (ix2 k j))) (i 1)

theorem G_eq_Gref (S : (⟨2, ![100000, 128]⟩ : Shape).Idx → EReal) (C : (⟨2, ![100000, 1]⟩ : Shape).Idx → EReal)
    (X : (⟨2, ![100000, 128]⟩ : Shape).Idx → EReal) (A B : (⟨2, ![128, 128]⟩ : Shape).Idx → EReal) :
    G S C X A B = Gref S C X A B :=
  funext fun _ => scaled_eq _ _

end Cert.SageNorm

end
-- ==== Proof.Payload.lean ====
/-
  The kernel body's stored value at one entry of its [5000,128] block.

  The body loads the block's scattered sums `sm`, in-degrees `cnt` (a column) and features `xb`, and the two
  projection matrices; it forms `sm / max cnt 1` (the column broadcast along the lanes), multiplies by the first
  matrix, adds the features times the second, and scales each row by `rsqrt` of its floored sum of squares (a lane
  sum, kept as a column and broadcast back). Read at row `p`, lane `q`, every step is a pointwise operation, a
  broadcast of a column, or a sum over the 128 lanes / contraction indices, so the entry is the row function
  `scaled (rowOut …) q` of row `p` of the loaded blocks.
-/
import proofs.«404613_j32598801777055_3_alg».proof.Proof.Gen.KernelIdeal.Skeleton
import proofs.«404613_j32598801777055_3_alg».proof.Proof.RowSpec
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Hand

open Cert.KernelIdeal Cert.KernelIdeal.Gen Idealize.ShloMosaic Idealize.ShloMosaic.ValueIdx Cert.SageNorm

/-! ## The layout steps at an entry -/

/-- A [5000,1] column broadcast along the lanes reads, at row `p` and any lane, the column's entry of row `p`. -/
theorem col_bcast_apply {α : Type} (v : S5000x1.Idx → α) (h : S5000x1.Broadcasts S5000x128) (p : Fin 5000) (q : Fin 128) :
    broadcastTo S5000x128 v h (ix2 p q) = v (ix2 p 0) :=
  broadcastTo_apply v h (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A [5000] vector re-laid as a [5000,1] column reads, at row `p`, the vector's entry `p`. -/
theorem keepdims_apply {α : Type} (w : S5000.Idx → α) (h : S5000.ShapeCasts S5000x1) (p : Fin 5000) :
    shapeCast S5000x1 w h (ix2 p 0) = w (ix1 p) :=
  shapeCast_apply w h (ix2 p 0) (ix1 p) (by
    rewrite [Shape.rowMajor_val_two, Shape.rowMajor_val_one]; show p.val = p.val * 1 + 0; omega)

/-- The sum over the lanes of a [5000,128] block, at row `p`. -/
theorem lanesum_apply (v : FVec Ideal S5000x128 .f32) (h : S5000x128.Reduces [1] S5000) (hφ : FKind.Formats FTy.f32)
    (hacc : (0x00000000#32 : BitVec 32) = 0x00000000#32) (p : Fin 5000) :
    multiReduction .add [1] S5000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-! ## A [5000,128] × [128,128] product at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, at row `p`, lane `q`: the sum over the contraction index. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The block before scaling -/

/-- The block's rows before scaling, as the body spells them. -/
def outBlk (cnt : Vec Ideal S5000x1 .f32) (sm xb : Vec Ideal S5000x128 .f32) (wa wl : FVec Ideal S128x128 .bf16) : FVec Ideal S5000x128 .f32 :=
  addf
    (matmul dot_S5000x128_S128x128_S5000x128_1_0_0_1_n_n none
      (truncf FTy.bf16
        (divf sm
          (broadcastTo S5000x128 (maximumf cnt (broadcast S5000x1 (FloatOps.ofBits FTy.f32 0x3F800000#32)))
            broadcasts_S5000x1_S5000x128))
        bitsLt_bf16_f32)
      wa (constant S5000x128 FTy.f32 0x00000000#32))
    (matmul dot_S5000x128_S128x128_S5000x128_1_0_0_1_n_n none (truncf FTy.bf16 xb bitsLt_bf16_f32) wl
      (constant S5000x128 FTy.f32 0x00000000#32))

/-- Row `p` of it is the row function of row `p` of the loaded blocks. -/
theorem outBlk_apply (cnt : Vec Ideal S5000x1 .f32) (sm xb : Vec Ideal S5000x128 .f32) (wa wl : FVec Ideal S128x128 .bf16)
    (p : Fin 5000) (j : Fin 128) :
    outBlk cnt sm xb wa wl (ix2 p j)
      = rowOut (fun k => sm (ix2 p k)) (cnt (ix2 p 0)) (fun k => xb (ix2 p k)) (fun k j => wa (ix2 k j)) (fun k j => wl (ix2 k j)) j := by
  unfold outBlk rowOut
  rw [addf_apply, matmul_at, matmul_at]
  refine congrArg₂ (· + ·) (Finset.sum_congr rfl fun k _ => ?_) (Finset.sum_congr rfl fun k _ => ?_)
  · rw [truncf_apply, divf_apply, col_bcast_apply, maximumf_apply, broadcast_apply, Ideal.ofBits_def, ofBits_one]
  · rw [truncf_apply]

/-! ## The stored value -/

/-- The stored value: the block's rows, each scaled by `rsqrt` of its floored lane sum of squares. -/
theorem pay_eq (cnt : Vec Ideal S5000x1 .f32) (sm xb : Vec Ideal S5000x128 .f32) (wa wl : Vec Ideal S128x128 .bf16) :
    k0_pay1 (F := Ideal) cnt sm xb wa wl
      = mulf (outBlk cnt sm xb wa wl)
          (broadcastTo S5000x128
            (rsqrt (maximumf
              (shapeCast S5000x1
                (multiReduction FKind.add [1] S5000 (mulf (outBlk cnt sm xb wa wl) (outBlk cnt sm xb wa wl)) 0x00000000#32
                  reduces_S5000x128_S5000 (.inl rfl) rfl)
                shapeCasts_S5000_S5000x1)
              (broadcast S5000x1 (Named.named κ "eps_sq" 0x179ABE15#32))))
            broadcasts_S5000x1_S5000x128) := by
  unfold k0_pay1 outBlk
  simp only [shapeCast_self]

/-- At row `p`, lane `q` the stored value is the scaled row function of row `p` of the loaded blocks. -/
theorem pay_apply (cnt : Vec Ideal S5000x1 .f32) (sm xb : Vec Ideal S5000x128 .f32) (wa wl : Vec Ideal S128x128 .bf16)
    (p : Fin 5000) (q : Fin 128) :
    k0_pay1 (F := Ideal) cnt sm xb wa wl (ix2 p q)
      = scaled (rowOut (fun k => sm (ix2 p k)) (cnt (ix2 p 0)) (fun k => xb (ix2 p k)) (fun k j => wa (ix2 k j)) (fun k j => wl (ix2 k j))) q := by
  rw [pay_eq, mulf_apply, col_bcast_apply]
  show outBlk cnt sm xb wa wl (ix2 p q) * Ideal.rsqrt (max (shapeCast S5000x1 _ shapeCasts_S5000_S5000x1 (ix2 p 0)) (Named.named (F := Ideal) κ "eps_sq" (φ := .f32) 0x179ABE15#32)) = _
  rw [keepdims_apply, lanesum_apply, IdealRules.named_const.ideal_named_scalar κ "eps_sq" _ _ rfl]
  unfold scaled rowSq
  simp only [mulf_apply, outBlk_apply]

end Cert.KernelIdeal.Hand

end
-- ==== Proof.KernelValue.lean ====
/-
  From the blocks to the whole result array.

  The grid has 20 points; point `t` stages rows `5000·t … 5000·t + 4999` of the scattered sums, of the in-degree
  column and of the features, and both projection matrices whole, and writes back the same rows of the result.
  So what point `t` writes back is rows `5000·t …` of ONE whole-array function of the arrays as the call finds them
  (`result`, the row function applied at every row), and the 20 row blocks tile the 100000 rows: the array ends
  holding `result`. The block lemmas are stated for arbitrary arrays: nothing about how the host operations made
  them is used here.
-/
import proofs.«404613_j32598801777055_3_alg».proof.Proof.Gen.KernelIdeal.Value
import proofs.«404613_j32598801777055_3_alg».proof.Proof.Payload
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.ValueIdx Cert.SageNorm
open Idealize.ShloMosaic.Pipeline (Dat)

theorem hz : (![0, 0] : Fin 2 → Nat) = fun _ => 0 := funext fun a => by fin_cases a <;> rfl

/-- The block index maps, decided over the 20 points: the three row-blocked inputs and the output move down the rows
    with the point, the two matrices stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `5000·t + p` of the array. -/
def rowOf (t : Fin cfg0.N) (p : Fin 5000) : Fin 100000 :=
  ⟨5000 * t.val + p.val, by have h : t.val < 20 := lt_of_lt_of_eq t.isLt N_0; have := p.isLt; omega⟩

/-! ## Each window's block of an array, read at an entry -/

/-- Point `t`'s block of an array through each input window, by its literal type. -/
abbrev rd0 (S : Vec Ideal S100000x128 .f32) (t : Fin cfg0.N) : Vec Ideal S5000x128 .f32 := ((cfg0.win 0).blk t).view.read (Elt Ideal) S
abbrev rd1 (C : Vec Ideal S100000x1 .f32) (t : Fin cfg0.N) : Vec Ideal S5000x1 .f32 := ((cfg0.win 1).blk t).view.read (Elt Ideal) C
abbrev rd2 (X : Vec Ideal S100000x128 .f32) (t : Fin cfg0.N) : Vec Ideal S5000x128 .f32 := ((cfg0.win 2).blk t).view.read (Elt Ideal) X
abbrev rd3 (A : Vec Ideal S128x128 .bf16) (t : Fin cfg0.N) : Vec Ideal S128x128 .bf16 := ((cfg0.win 3).blk t).view.read (Elt Ideal) A
abbrev rd4 (B : Vec Ideal S128x128 .bf16) (t : Fin cfg0.N) : Vec Ideal S128x128 .bf16 := ((cfg0.win 4).blk t).view.read (Elt Ideal) B

theorem read0_apply (S : Vec Ideal S100000x128 .f32) (t : Fin cfg0.N) (p : Fin 5000) (k : Fin 128) :
    rd0 S t (ix2 p k) = S (ix2 (rowOf t p) k) := by
  show ((cfg0.win 0).blk t).view.read (Elt Ideal) S (ix2 p k) = _
  rw [View.read_apply]
  refine congrArg S ?_
  funext a
  apply Fin.ext
  obtain ⟨e0, e1, -⟩ := idx_facts t
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem read1_apply (C : Vec Ideal S100000x1 .f32) (t : Fin cfg0.N) (p : Fin 5000) :
    rd1 C t (ix2 p 0) = C (ix2 (rowOf t p) 0) := by
  show ((cfg0.win 1).blk t).view.read (Elt Ideal) C (ix2 p 0) = _
  rw [View.read_apply]
  refine congrArg C ?_
  funext a
  apply Fin.ext
  obtain ⟨-, -, e0, e1, -⟩ := idx_facts t
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

theorem read2_apply (X : Vec Ideal S100000x128 .f32) (t : Fin cfg0.N) (p : Fin 5000) (k : Fin 128) :
    rd2 X t (ix2 p k) = X (ix2 (rowOf t p) k) := by
  show ((cfg0.win 2).blk t).view.read (Elt Ideal) X (ix2 p k) = _
  rw [View.read_apply]
  refine congrArg X ?_
  funext a
  apply Fin.ext
  obtain ⟨-, -, -, -, e0, e1, -⟩ := idx_facts t
  match a with
  | ⟨0, _⟩ => show win0_2.index t (0 : Fin 2) * 5000 + 1 * p.val = 5000 * t.val + p.val; rw [e0]; omega
  | ⟨1, _⟩ => show win0_2.index t (1 : Fin 2) * 128 + 1 * k.val = k.val; rw [e1]; omega

theorem read3_apply (A : Vec Ideal S128x128 .bf16) (t : Fin cfg0.N) (k j : Fin 128) :
    rd3 A t (ix2 k j) = A (ix2 k j) := by
  show ((cfg0.win 3).blk t).view.read (Elt Ideal) A (ix2 k j) = _
  rw [View.read_apply]
  refine congrArg A ?_
  funext a
  apply Fin.ext
  obtain ⟨-, -, -, -, -, -, e0, e1, -⟩ := idx_facts t
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem read4_apply (B : Vec Ideal S128x128 .bf16) (t : Fin cfg0.N) (k j : Fin 128) :
    rd4 B t (ix2 k j) = B (ix2 k j) := by
  show ((cfg0.win 4).blk t).view.read (Elt Ideal) B (ix2 k j) = _
  rw [View.read_apply]
  refine congrArg B ?_
  funext a
  apply Fin.ext
  obtain ⟨-, -, -, -, -, -, -, -, e0, e1, -⟩ := idx_facts t
  match a with
  | ⟨0, _⟩ => show win0_4.index t (0 : Fin 2) * 128 + 1 * k.val = k.val; rw [e0]; omega
  | ⟨1, _⟩ => show win0_4.index t (1 : Fin 2) * 128 + 1 * j.val = j.val; rw [e1]; omega

/-- Entry `(p, q)` of the output's block at point `t` is entry `(5000·t + p, q)` of the array. -/
theorem emb5 (t : Fin cfg0.N) (p : Fin 5000) (q : Fin 128) :
    ((cfg0.win 5).blk t).view.emb (ix2 p q) = ix2 (rowOf t p) q := by
  funext a
  apply Fin.ext
  obtain ⟨-, -, -, -, -, -, -, -, -, -, e0, e1⟩ := idx_facts t
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-! ## What a point's body stores, for any arrays -/

/-- For ANY arrays: the body's stored value on the point's blocks of them, at an entry of the output block, is the
    row function `G` of the whole arrays at that entry's place in the output array. -/
theorem block_eq (S : Vec Ideal S100000x128 .f32) (C : Vec Ideal S100000x1 .f32) (X : Vec Ideal S100000x128 .f32)
    (A B : Vec Ideal S128x128 .bf16) (t : Fin cfg0.N) (p : Fin 5000) (q : Fin 128) :
    k0_pay1 (F := Ideal) (rd1 C t) (rd0 S t) (rd2 X t) (rd3 A t) (rd4 B t) (ix2 p q)
      = G S C X A B (ix2 (rowOf t p) q) := by
  refine (pay_apply (rd1 C t) (rd0 S t) (rd2 X t) (rd3 A t) (rd4 B t) p q).trans ?_
  unfold G
  simp only [read0_apply, read1_apply, read2_apply, read3_apply, read4_apply]

/-- For ANY arrays: what the body leaves in the output's staging buffer on the point's blocks of them, as written
    back, is the point's block of `G` of the whole arrays. -/
theorem out_block_eq (S : Vec Ideal S100000x128 .f32) (C : Vec Ideal S100000x1 .f32) (X : Vec Ideal S100000x128 .f32)
    (A B : Vec Ideal S128x128 .bf16) (t : Fin cfg0.N) :
    (cfg0.win 5).cut (grid0.coords t) (out0_5 (rd0 S t) (rd1 C t) (rd2 X t) (rd3 A t) (rd4 B t))
      = ((cfg0.win 5).blk t).view.read (Elt Ideal) (G S C X A B) := by
  unfold out0_5
  rw [View.canon_unit_zero hz]
  simp only [View.ld_unit_zero (S := S5000x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 (n0 := 5000) (n1 := 128) j⟩
  rw [View.read_apply, emb5]
  exact block_eq S C X A B t p q

variable (m : (ℓ : Loc nD τ sig) → Buf (Elt Ideal) ℓ) (ρ : Dev nD → PrngReg)

/-! ## What each point writes back, and the array after the run -/

/-- The whole result: the row function at every row of the arrays as the call finds them. -/
abbrev result (c : Dev nD) : Buf (Elt Ideal) ((c : Thread nD τ).loc main_v23) :=
  G (V m c main_v13) (V m c main_v18) (V m c main_arg0) (V m c main_v20) (V m c main_v22)

/-- Point `t` writes back rows `5000·t …` of `result`. -/
theorem flushed_eq (c : Dev nD) (t : Fin cfg0.N) :
    (dats m 0 c).flushed 5 t = ((cfg0.win 5).blk t).view.read (Elt Ideal) (result m c) :=
  (Value.flushed5 m c t).trans (out_block_eq (V m c main_v13) (V m c main_v18) (V m c main_arg0) (V m c main_v20) (V m c main_v22) t)

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- The 20 row blocks tile the rows: row `r` is in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- So the result array ends holding `result`. -/
theorem final (c : Dev nD) : (dats m 0 c).arrAt 5 cfg0.N = result m c :=
  (dats m 0 c).arrAt_eq_of_cover 5 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.KernelIdeal.Value.run_blocks m ρ)

end Cert.KernelIdeal.Hand

end
-- ==== Proof.RefValue.lean ====
/-
  The reference's result, stage by stage, is the row function with the dividing form of the scaling.

  Its last stage divides the summed projections `o` by `max (√(∑ⱼ o²)) ε` broadcast along each row; `o` is the
  product of `s / max cnt 1` (the in-degree column broadcast along the row) with the first transposed matrix plus
  the product of the features with the second. Read at row `r`, lane `j`, each stage is pointwise, a broadcast of a
  column, or a sum over 128 indices, so the entry is `scaledRef (rowOut …) j` of row `r` of the scattered sums, the
  in-degrees and the features. The scatter and gather stages themselves are not opened: both programs share them.
-/
import proofs.«404613_j32598801777055_3_alg».proof.Proof.Gen.ReferenceIdeal.Read
import proofs.«404613_j32598801777055_3_alg».proof.Proof.RowSpec

noncomputable section

namespace Cert.ReferenceIdeal.Hand

open Cert.ReferenceIdeal Cert.ReferenceIdeal.Read Idealize.ShloMosaic Idealize.ShloMosaic.ValueIdx Cert.SageNorm

/-! ## The stages' index maps at a row and a lane -/

theorem lidx24 (r : Fin 100000) (j k : Fin 128) : lidx_main_v24 (ix2 r j) k = ix2 r k :=
  funext fun a => Fin.ext (by match a with | ⟨0, _⟩ => rfl | ⟨1, _⟩ => rfl)
theorem ridx24 (r : Fin 100000) (j k : Fin 128) : ridx_main_v24 (ix2 r j) k = ix2 k j :=
  funext fun a => Fin.ext (by match a with | ⟨0, _⟩ => rfl | ⟨1, _⟩ => rfl)
theorem lidx26 (r : Fin 100000) (j k : Fin 128) : lidx_main_v26 (ix2 r j) k = ix2 r k :=
  funext fun a => Fin.ext (by match a with | ⟨0, _⟩ => rfl | ⟨1, _⟩ => rfl)
theorem ridx26 (r : Fin 100000) (j k : Fin 128) : ridx_main_v26 (ix2 r j) k = ix2 k j :=
  funext fun a => Fin.ext (by match a with | ⟨0, _⟩ => rfl | ⟨1, _⟩ => rfl)
theorem idx21 (r : Fin 100000) (k : Fin 128) : idx_main_v21 (ix2 r k) = ix2 r 0 :=
  funext fun a => Fin.ext (by match a with | ⟨0, _⟩ => rfl | ⟨1, _⟩ => rfl)
theorem idx31 (r : Fin 100000) (j : Fin 128) : idx_main_v31 (ix2 r j) = ix2 r 0 :=
  funext fun a => Fin.ext (by match a with | ⟨0, _⟩ => rfl | ⟨1, _⟩ => rfl)
theorem idxc2 (r : Fin 100000) : idx_main_call0_v2 (ix2 r (0 : Fin 1)) = ix1 r :=
  funext fun a => Fin.ext (by match a with | ⟨0, _⟩ => rfl)
theorem idxc1 (r : Fin 100000) (k : Fin 128) : idx_main_call0_v1 (ix1 r) k = ix2 r k :=
  funext fun a => Fin.ext (by match a with | ⟨0, _⟩ => rfl | ⟨1, _⟩ => rfl)

/-! ## The summed projections at a row -/

/-- The sum of the two projections, at row `r` and lane `j`, is the row function of row `r`. -/
theorem v27_row (x0 : (⟨S100000x128, .f32⟩ : BufTy).Contents (Elt Ideal)) (x1 x2 : (⟨S128x128, .f32⟩ : BufTy).Contents (Elt Ideal))
    (x3 : (⟨S2x1600000, .i32⟩ : BufTy).Contents (Elt Ideal)) (r : Fin 100000) (j : Fin 128) :
    val_main_v27 (F := Ideal) x0 x1 x2 x3 (ix2 r j)
      = rowOut (fun k => val_main_v13 (F := Ideal) x0 x3 (ix2 r k)) (val_main_v18 (F := Ideal) x3 (ix2 r 0)) (fun k => x0 (ix2 r k))
          (fun k j => val_main_v23 (F := Ideal) x2 (ix2 k j)) (fun k j => val_main_v25 (F := Ideal) x1 (ix2 k j)) j := by
  rw [val_main_v27_apply, val_main_v24_apply, val_main_v26_apply]
  unfold rowOut
  rw [Ideal.addf_def]
  refine congrArg₂ (· + ·) ?_ ?_
  · refine Finset.sum_congr rfl fun k _ => ?_
    rw [lidx24, ridx24, val_main_v22_apply, val_main_v21_apply, idx21, val_main_v20_apply, val_main_v19_apply,
      val_main_cst_3_apply, Ideal.hostDivf_def, Ideal.maximumf_def, Ideal.ofBits_def, ofBits_one]
  · refine Finset.sum_congr rfl fun k _ => ?_
    rw [lidx26, ridx26]

/-! ## The result -/

/-- The reference's last stage is `Gref` of the scattered sums, the in-degree column, the features and the two
    transposed matrices. -/
theorem result_eq (x0 : (⟨S100000x128, .f32⟩ : BufTy).Contents (Elt Ideal)) (x1 x2 : (⟨S128x128, .f32⟩ : BufTy).Contents (Elt Ideal))
    (x3 : (⟨S2x1600000, .i32⟩ : BufTy).Contents (Elt Ideal)) :
    val_main_v32 (F := Ideal) x0 x1 x2 x3
      = Gref (val_main_v13 (F := Ideal) x0 x3) (val_main_v18 (F := Ideal) x3) x0 (val_main_v23 (F := Ideal) x2) (val_main_v25 (F := Ideal) x1) := by
  funext i
  obtain ⟨r, j, rfl⟩ : ∃ (r : Fin 100000) (j : Fin 128), i = ix2 r j := ⟨i 0, i 1, eq_ix2 i⟩
  rw [val_main_v32_apply, val_main_v31_apply, idx31, val_main_v30_apply, val_main_v28_apply, val_main_call0_v2_apply, idxc2,
    val_main_call0_v1_apply, val_main_v29_apply, val_main_cst_4_apply, val_main_call0_cst_apply]
  have hsum : (∑ k : Fin 128, val_main_call0_v0 (F := Ideal) x0 x1 x2 x3 (idx_main_call0_v1 (ix1 r) k))
      = rowSq (rowOut (fun k => val_main_v13 (F := Ideal) x0 x3 (ix2 r k)) (val_main_v18 (F := Ideal) x3 (ix2 r 0)) (fun k => x0 (ix2 r k))
          (fun k j => val_main_v23 (F := Ideal) x2 (ix2 k j)) (fun k j => val_main_v25 (F := Ideal) x1 (ix2 k j))) := by
    unfold rowSq
    refine Finset.sum_congr rfl fun k _ => ?_
    rw [idxc1, val_main_call0_v0_apply, v27_row, Ideal.mulf_def]
  rw [hsum, v27_row, Ideal.hostDivf_def, Ideal.maximumf_def, Ideal.hostUnary_sqrt_def, Ideal.ofBits_def,
    Ideal.ofBits_zero_f32, zero_add, Ideal.ofBits_def]
  unfold Gref scaledRef
  rfl

end Cert.ReferenceIdeal.Hand

end
-- ==== Proof.Bridge.lean ====
/-
  The two programs meet before the normalisation: the kernel call finds, in the buffers the host operations before
  it wrote, exactly the reference's own stages — the scattered neighbour sums, the in-degree column, and the two
  transposed projection matrices (the kernel's copies also rounded to bf16, which changes nothing over the extended
  reals). Both programs build them by the same gather, scatter-adds, broadcasts and transposes of the same arguments,
  so each pair is one term. With them the kernel's whole result is the reference's last stage's function.
-/
import proofs.«404613_j32598801777055_3_alg».proof.Proof.KernelValue
import proofs.«404613_j32598801777055_3_alg».proof.Proof.RefValue
import Idealize.ShloMosaic.Lib.StableHlo.Run
import Idealize.ShloMosaic.Lib.Tactic

noncomputable section

namespace Cert.Bridge

open Idealize.ShloMosaic Idealize.ShloMosaic.TcCoe Idealize.SL.Sem Idealize.ShloMosaic.StableHlo
open Cert.KernelIdeal Cert.KernelIdeal.Gen Cert.SageNorm

variable (m : (ℓ : Loc nD τ sig) → Buf (Elt Ideal) ℓ)

/-- The scattered neighbour sums the call finds are the reference's stage of the same arguments. -/
theorem V_sum (c : Dev nD) :
    (V m c main_v13 : (⟨2, ![100000, 128]⟩ : Shape).Idx → EReal)
      = Cert.ReferenceIdeal.Read.val_main_v13 (F := Ideal) (m ((c : Thread nD τ).loc main_arg0)) (m ((c : Thread nD τ).loc main_arg3)) := by
  dsimp only [Gen.V, Gen.hostOps0]
  after_results
  rfl

/-- The in-degree column likewise. -/
theorem V_cnt (c : Dev nD) :
    (V m c main_v18 : (⟨2, ![100000, 1]⟩ : Shape).Idx → EReal)
      = Cert.ReferenceIdeal.Read.val_main_v18 (F := Ideal) (m ((c : Thread nD τ).loc main_arg3)) := by
  dsimp only [Gen.V, Gen.hostOps0]
  after_results
  rfl

/-- The first projection matrix, transposed (and, in the kernel's program, rounded: the identity here). -/
theorem V_wa (c : Dev nD) :
    (V m c main_v20 : (⟨2, ![128, 128]⟩ : Shape).Idx → EReal)
      = Cert.ReferenceIdeal.Read.val_main_v23 (F := Ideal) (m ((c : Thread nD τ).loc main_arg2)) := by
  dsimp only [Gen.V, Gen.hostOps0]
  after_results
  rfl

/-- The second projection matrix likewise. -/
theorem V_wl (c : Dev nD) :
    (V m c main_v22 : (⟨2, ![128, 128]⟩ : Shape).Idx → EReal)
      = Cert.ReferenceIdeal.Read.val_main_v25 (F := Ideal) (m ((c : Thread nD τ).loc main_arg1)) := by
  dsimp only [Gen.V, Gen.hostOps0]
  after_results
  rfl

/-- The features are the first argument, untouched by the host operations. -/
theorem V_x (c : Dev nD) :
    (V m c main_arg0 : (⟨2, ![100000, 128]⟩ : Shape).Idx → EReal) = m ((c : Thread nD τ).loc main_arg0) :=
  V_main_arg0 m c

/-- The kernel's whole result is the reference's last stage's function of the same arguments. -/
theorem result_eq (c : Dev nD) :
    Cert.KernelIdeal.Hand.result m c
      = Gref (Cert.ReferenceIdeal.Read.val_main_v13 (F := Ideal) (m ((c : Thread nD τ).loc main_arg0)) (m ((c : Thread nD τ).loc main_arg3)))
          (Cert.ReferenceIdeal.Read.val_main_v18 (F := Ideal) (m ((c : Thread nD τ).loc main_arg3)))
          (m ((c : Thread nD τ).loc main_arg0))
          (Cert.ReferenceIdeal.Read.val_main_v23 (F := Ideal) (m ((c : Thread nD τ).loc main_arg2)))
          (Cert.ReferenceIdeal.Read.val_main_v25 (F := Ideal) (m ((c : Thread nD τ).loc main_arg1))) := by
  show G (V m c main_v13) (V m c main_v18) (V m c main_arg0) (V m c main_v20) (V m c main_v22) = _
  rw [G_eq_Gref]
  exact congr (congr (congr (congr (congrArg Gref (V_sum m c)) (V_cnt m c)) (V_x m c)) (V_wa m c)) (V_wl m c)

end Cert.Bridge

end
-- ==== Proof.lean ====
/-
  The certificate's claims.

  The kernel normalises each node's summed projections by `rsqrt (max (∑ o²) ε²)`, the reference by dividing by
  `max (√(∑ o²)) ε`; the kernel's floor is named the square of the reference's, and the two scalings are one function
  on the extended reals (Proof/NormLaw.lean). Everything before the normalisation is the same term in both programs
  (Proof/Bridge.lean); the kernel's array is assembled from its 20 row blocks (Proof/KernelValue.lean over
  Proof/Payload.lean), the reference's last stage is read row by row (Proof/RefValue.lean).
-/
import proofs.«404613_j32598801777055_3_alg».proof.Defs
import proofs.«404613_j32598801777055_3_alg».proof.Proof.Gen.Kernel
import proofs.«404613_j32598801777055_3_alg».proof.Proof.Gen.Kernel.Skeleton
import proofs.«404613_j32598801777055_3_alg».proof.Proof.Gen.Kernel.Launch
import proofs.«404613_j32598801777055_3_alg».proof.Proof.Gen.Kernel.Points
import proofs.«404613_j32598801777055_3_alg».proof.Proof.Gen.Kernel.Frame
import proofs.«404613_j32598801777055_3_alg».proof.Proof.Gen.KernelIdeal
import proofs.«404613_j32598801777055_3_alg».proof.Proof.Gen.KernelIdeal.Skeleton
import proofs.«404613_j32598801777055_3_alg».proof.Proof.Gen.KernelIdeal.Launch
import proofs.«404613_j32598801777055_3_alg».proof.Proof.Gen.KernelIdeal.Points
import proofs.«404613_j32598801777055_3_alg».proof.Proof.Gen.KernelIdeal.Frame
import proofs.«404613_j32598801777055_3_alg».proof.Proof.Gen.ReferenceIdeal
import proofs.«404613_j32598801777055_3_alg».proof.Proof.Gen.Pre_finite_inputs
import proofs.«404613_j32598801777055_3_alg».proof.Proof.Gen.KernelIdeal.Value
import proofs.«404613_j32598801777055_3_alg».proof.Proof.Gen.ReferenceIdeal.Run
import proofs.«404613_j32598801777055_3_alg».proof.Proof.Gen.ReferenceIdeal.Read
import proofs.«404613_j32598801777055_3_alg».proof.Proof.Bridge
import Idealize.ShloMosaic.Adequacy
import Idealize.ShloMosaic.Init

noncomputable section

namespace Cert.Proof

open Idealize.ShloMosaic Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference has no kernel: its frame is its run with the result dropped. -/
theorem frame_ri : Cert.frame_ReferenceIdeal :=
  fun m ρ _ =>
    (θ_run Cert.ReferenceIdeal.defs _ _).mono (fun _ h c => (h c).2) (Cert.ReferenceIdeal.Value.run (F := Ideal) m ρ)

/-- The one named constant: the kernel's floor under the square root denotes the square of the reference's floor. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- Both runs end with the result array at the reference's last stage's function of the (agreeing) arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Hand.result_eq, (hagree c).1, (hagree c).2.1,
    (hagree c).2.2.1, (hagree c).2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
